-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The two dense stages of a graph-convolution layer, as whole-array functions over the extended reals.

  A layer of the network is relu (A · (X · W) + b): the node features X (50000 nodes, 64 features) are
  projected by the weight matrix W, the projected rows are gathered along the edges, scaled by the symmetric
  degree normalisation and summed into their destination nodes (the sparse aggregation A ·), and the bias is
  added and the result clamped at zero. The aggregation is the same host computation in both programs; the
  two dense stages are what the kernels compute block by block, and what is stated here index by index:

  * `project X W` — the matrix product: entry (n, j) is ∑ k, X[n, k] · W[k, j];
  * `biasRelu A b` — entry (n, j) is max (A[n, j] + b[0, j]) 0, the bias a 1 × 64 row.
-/
import Idealize.ShloMosaic.Lib.ValueIdx
import Idealize.ShloMosaic.PureOps.Ideal.Laws

noncomputable section

open scoped BigOperators

namespace Cert.GcnSpec

open Idealize.ShloMosaic Idealize.ShloMosaic.ValueIdx

/-- Node features: 50000 nodes by 64 features. -/
abbrev Nodes : Shape := ⟨2, ![50000, 64]⟩
/-- A weight matrix: 64 by 64. -/
abbrev Weights : Shape := ⟨2, ![64, 64]⟩
/-- A bias, laid out as one row of 64. -/
abbrev BiasRow : Shape := ⟨2, ![1, 64]⟩

/-- The dense projection X · W: entry (n, j) is the sum over the 64 input features k of X[n, k] · W[k, j]. -/
def project (X : FVec Ideal Nodes .f32) (W : FVec Ideal Weights .f32) : FVec Ideal Nodes .f32 :=
  fun i => ∑ k : Fin 64, X (ix2 (i 0) k) * W (ix2 k (i 1))

/-- The epilogue of a layer: add the bias of feature j to every node's entry (n, j) and clamp at zero. -/
def biasRelu (A : FVec Ideal Nodes .f32) (b : FVec Ideal BiasRow .f32) : FVec Ideal Nodes .f32 :=
  fun i => max (A i + b (ix2 0 (i 1))) (Ideal.ofBits .f32 0x00000000#32)

end Cert.GcnSpec

end
-- ==== Proof.Project0.lean ====
/-
  Dense projection: the output array after the launch is the matrix product of the two
  arrays the launch reads, entry by entry.

  The grid has five points; point t multiplies rows 10000·t … 10000·t + 9999 of the left array by the whole 64 × 64
  right array (both rounded to a narrower float format first, which over the extended reals changes nothing) into
  a zero accumulator, and writes the 10000 × 64 product back as block t of the output. Entry (r, j) of a block is
  ∑ k, left[10000·t + r, k] · right[k, j]: exactly entry (10000·t + r, j) of the whole product, so each block is the
  whole product read through the block's rectangle, and the five blocks tile the 50000 rows.
-/
import proofs.«172337_j86268713107997_1_alg».proof.Proof.Gen.KernelIdeal.Frame
import proofs.«172337_j86268713107997_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Project0

open Cert.KernelIdeal Cert.KernelIdeal.Gen Cert.GcnSpec

variable (V : (c : Dev nD) → (b : Ref sig .tc) → Buf (Elt Ideal) ((c : Thread nD τ).loc b))

/-- The left array as the launch finds it: 50000 rows of 64 features. -/
abbrev leftArr (c : Dev nD) : FVec Ideal S50000x64 .f32 := V c main_arg0
/-- The right array as the launch finds it: the 64 by 64 weights. -/
abbrev rightArr (c : Dev nD) : FVec Ideal S64x64 .f32 := V c main_arg2

theorem zeroOffsets : (![0, 0] : Fin 2 → Nat) = fun _ => 0 := funext fun a => by fin_cases a <;> rfl

/-! ## The block product at an entry -/

/-- The left operand's index at output entry i and contraction index q: row i₀ … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … column the contraction index; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand's: row the contraction index … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … column i₁. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row r, feature k of a 10000-row block. -/
abbrev rowAt (i : S10000x64.Idx) (k : Fin 64) : S10000x64.Idx := fun a => match a with
  | ⟨0, _⟩ => ⟨(i 0).val, (i 0).isLt⟩
  | ⟨1, _⟩ => ⟨k.val, k.isLt⟩
/-- Feature k, output column j of the weights. -/
abbrev colAt (i : S10000x64.Idx) (k : Fin 64) : S64x64.Idx := fun a => match a with
  | ⟨0, _⟩ => ⟨k.val, k.isLt⟩
  | ⟨1, _⟩ => ⟨(i 1).val, (i 1).isLt⟩

/-- What the body stores at entry i of its output block: the sum over the 64 features k of the left block's
    (i₀, k) times the right block's (k, i₁) — the format changes are the identity and the accumulator starts at zero. -/
theorem blockProduct_apply (x0 : Vec Ideal S10000x64 .f32) (x1 : Vec Ideal S64x64 .f32) (i : S10000x64.Idx) :
    k0_pay1 (F := Ideal) x0 x1 i = ∑ k : Fin 64, x0 (rowAt i k) * x1 (colAt i k) := by
  unfold k0_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx i ((contrEquiv1 dot_S10000x64_S64x64_S10000x64_1_0_0_1_n_n 64 rfl rfl).symm k) = rowAt i k := funext fun a => Fin.ext (by
    match a with
    | ⟨0, _⟩ => exact lhs_row _ _
    | ⟨1, _⟩ => exact (lhs_col _ _).trans hk)
  have er : dot_S10000x64_S64x64_S10000x64_1_0_0_1_n_n.rhsIdx i ((contrEquiv1 dot_S10000x64_S64x64_S10000x64_1_0_0_1_n_n 64 rfl rfl).symm k) = colAt i k := funext fun a => Fin.ext (by
    match a with
    | ⟨0, _⟩ => exact (rhs_row _ _).trans hk
    | ⟨1, _⟩ => exact rhs_col _ _)
  rw [el, er]
  rfl

/-! ## From blocks to the array -/

/-- The index maps over the grid: the left window moves down the rows with the output window, the weights stay put. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Each of the five row blocks is some point's. -/
theorem index_onto : ∀ q : Fin 5, ∃ t : Fin cfg0.N, win0_2.index t = ![q.val, 0] :=
  (by decide +kernel : ∀ q : Fin 5, ∃ t : Fin grid0.N, win0_2.index t = ![q.val, 0])

/-- What point t writes back is block t of the product of the two arrays the launch finds. -/
theorem flushed_eq (c : Dev nD) (t : Fin cfg0.N) :
    (dat0 V c).flushed 2 t = ((cfg0.win 2).blk t).view.read (Elt Ideal) (project (leftArr V c) (rightArr V c)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S64x64) zeroOffsets]
  obtain ⟨e0, e1, e2, e3, e4, e5⟩ := index_facts t
  funext j
  refine (blockProduct_apply (iblk0 V c 0 t) (iblk0 V c 1 t) j).trans ?_
  show _ = project (leftArr V c) (rightArr V c) (((cfg0.win 2).blk t).view.emb j)
  unfold project
  refine Finset.sum_congr rfl fun k _ => ?_
  have h0 : ((cfg0.win 0).blk t).view.emb (rowAt j k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (colAt j k) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  show leftArr V c (((cfg0.win 0).blk t).view.emb (rowAt j k)) * rightArr V c (((cfg0.win 1).blk t).view.emb (colAt j k))
    = leftArr V c (ix2 ((((cfg0.win 2).blk t).view.emb j) 0) k) * rightArr V c (ix2 k ((((cfg0.win 2).blk t).view.emb j) 1))
  rw [h0, h1]
  rfl

/-- An entry of the array lies in point t's block iff its row does. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every entry is in the block of the point that holds its row: row n is in block n / 10000. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the launch is the product of the two arrays it read. -/
theorem array_eq (c : Dev nD) : (dat0 V c).arrAt 2 cfg0.N = project (leftArr V c) (rightArr V c) :=
  (dat0 V c).arrAt_eq_of_cover 2 (project (leftArr V c) (rightArr V c)) (fun t _ => flushed_eq V c t) covered

end Cert.KernelIdeal.Project0

end
-- ==== Proof.BiasRelu1.lean ====
/-
  Bias and clamp, the epilogue of a layer: the output array after the launch is the aggregated array it reads
  with the bias row added to every node and the result clamped at zero, entry by entry.

  The grid has five points; point t reads rows 10000·t … 10000·t + 9999 of the aggregated array and the whole
  1 × 64 bias row, adds the bias of feature j to every entry (r, j), takes the maximum with zero and writes
  the block back as block t of the output. Every entry depends only on the same entry of the aggregated array
  and on the bias of its column, so each block is the whole result read through the block's rectangle, and
  the five blocks tile the 50000 rows.
-/
import proofs.«172337_j86268713107997_1_alg».proof.Proof.Gen.KernelIdeal.Frame
import proofs.«172337_j86268713107997_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu1

open Cert.KernelIdeal Cert.KernelIdeal.Gen Cert.GcnSpec

variable (V : (c : Dev nD) → (b : Ref sig .tc) → Buf (Elt Ideal) ((c : Thread nD τ).loc b))

/-- The aggregated array as the launch finds it, 50000 by 64. -/
abbrev aggArr (c : Dev nD) : FVec Ideal S50000x64 .f32 := V c main_v43
/-- The bias row as the launch finds it, 1 by 64. -/
abbrev biasArr (c : Dev nD) : FVec Ideal S1x64 .f32 := V c main_v44

theorem zeroOffsets : (![0, 0] : Fin 2 → Nat) = fun _ => 0 := funext fun a => by fin_cases a <;> rfl

/-! ## The block's entry -/

/-- The bias row's entry under column i₁. -/
abbrev biasAt (i : S10000x64.Idx) : S1x64.Idx := fun a => match a with
  | ⟨0, _⟩ => ⟨0, Nat.one_pos⟩
  | ⟨1, _⟩ => ⟨(i 1).val, (i 1).isLt⟩

/-- What the body stores at entry i of its output block: the aggregated entry plus its column's bias, clamped at zero
    (the same-shape casts are the identity, the row broadcast reads the bias row under the entry's column). -/
theorem blockEntry (x0 : Vec Ideal S10000x64 .f32) (x1 : Vec Ideal S1x64 .f32) (i : S10000x64.Idx) :
    k1_pay1 (F := Ideal) x0 x1 i = max (x0 i + x1 (biasAt i)) (Ideal.ofBits .f32 0x00000000#32) := by
  unfold k1_pay1
  simp only [shapeCast_self]
  show max (x0 i + broadcastTo S10000x64 x1 broadcasts_S1x64_S10000x64 i) (Ideal.ofBits .f32 0x00000000#32) = _
  rw [broadcastTo_apply x1 broadcasts_S1x64_S10000x64 i (biasAt i) (fun a => match a with
    | ⟨0, _⟩ => by show 0 = if (1 : Nat) = 1 then 0 else _; rw [if_pos rfl]
    | ⟨1, _⟩ => by show (i 1).val = if (64 : Nat) = 1 then 0 else (i 1).val; rw [if_neg (by decide)])]

/-! ## From blocks to the array -/

/-- The index maps over the grid: the aggregated window moves down the rows with the output window, the bias row stays put. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

/-- Each of the five row blocks is some point's. -/
theorem index_onto : ∀ q : Fin 5, ∃ t : Fin cfg1.N, win1_2.index t = ![q.val, 0] :=
  (by decide +kernel : ∀ q : Fin 5, ∃ t : Fin grid1.N, win1_2.index t = ![q.val, 0])

/-- What point t writes back is block t of the biased, clamped array of the two arrays the launch finds. -/
theorem flushed_eq (c : Dev nD) (t : Fin cfg1.N) :
    (dat1 V c).flushed 2 t = ((cfg1.win 2).blk t).view.read (Elt Ideal) (biasRelu (aggArr V c) (biasArr V c)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S1x64) zeroOffsets]
  obtain ⟨e0, e1, e2, e3, e4, e5⟩ := index_facts t
  funext j
  refine (blockEntry (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (biasAt j) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  show max (aggArr V c (((cfg1.win 0).blk t).view.emb j) + biasArr V c (((cfg1.win 1).blk t).view.emb (biasAt j))) (Ideal.ofBits .f32 0x00000000#32)
    = max (aggArr V c (((cfg1.win 2).blk t).view.emb j) + biasArr V c (ix2 (0 : Fin 1) ((((cfg1.win 2).blk t).view.emb j) 1))) (Ideal.ofBits .f32 0x00000000#32)
  rw [h0, h1]
  rfl

/-- An entry of the array lies in point t's block iff its row does. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every entry is in the block of the point that holds its row: row n is in block n / 10000. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the launch is the aggregated array it read, biased and clamped. -/
theorem array_eq (c : Dev nD) : (dat1 V c).arrAt 2 cfg1.N = biasRelu (aggArr V c) (biasArr V c) :=
  (dat1 V c).arrAt_eq_of_cover 2 (biasRelu (aggArr V c) (biasArr V c)) (fun t _ => flushed_eq V c t) covered

end Cert.KernelIdeal.BiasRelu1

end
-- ==== Proof.Project2.lean ====
/-
  Dense projection: the output array after the launch is the matrix product of the two
  arrays the launch reads, entry by entry.

  The grid has five points; point t multiplies rows 10000·t … 10000·t + 9999 of the left array by the whole 64 × 64
  right array (both rounded to a narrower float format first, which over the extended reals changes nothing) into
  a zero accumulator, and writes the 10000 × 64 product back as block t of the output. Entry (r, j) of a block is
  ∑ k, left[10000·t + r, k] · right[k, j]: exactly entry (10000·t + r, j) of the whole product, so each block is the
  whole product read through the block's rectangle, and the five blocks tile the 50000 rows.
-/
import proofs.«172337_j86268713107997_1_alg».proof.Proof.Gen.KernelIdeal.Frame
import proofs.«172337_j86268713107997_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Project2

open Cert.KernelIdeal Cert.KernelIdeal.Gen Cert.GcnSpec

variable (V : (c : Dev nD) → (b : Ref sig .tc) → Buf (Elt Ideal) ((c : Thread nD τ).loc b))

/-- The left array as the launch finds it: 50000 rows of 64 features. -/
abbrev leftArr (c : Dev nD) : FVec Ideal S50000x64 .f32 := V c main_v45
/-- The right array as the launch finds it: the 64 by 64 weights. -/
abbrev rightArr (c : Dev nD) : FVec Ideal S64x64 .f32 := V c main_arg4

theorem zeroOffsets : (![0, 0] : Fin 2 → Nat) = fun _ => 0 := funext fun a => by fin_cases a <;> rfl

/-! ## The block product at an entry -/

/-- The left operand's index at output entry i and contraction index q: row i₀ … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … column the contraction index; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand's: row the contraction index … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … column i₁. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row r, feature k of a 10000-row block. -/
abbrev rowAt (i : S10000x64.Idx) (k : Fin 64) : S10000x64.Idx := fun a => match a with
  | ⟨0, _⟩ => ⟨(i 0).val, (i 0).isLt⟩
  | ⟨1, _⟩ => ⟨k.val, k.isLt⟩
/-- Feature k, output column j of the weights. -/
abbrev colAt (i : S10000x64.Idx) (k : Fin 64) : S64x64.Idx := fun a => match a with
  | ⟨0, _⟩ => ⟨k.val, k.isLt⟩
  | ⟨1, _⟩ => ⟨(i 1).val, (i 1).isLt⟩

/-- What the body stores at entry i of its output block: the sum over the 64 features k of the left block's
    (i₀, k) times the right block's (k, i₁) — the format changes are the identity and the accumulator starts at zero. -/
theorem blockProduct_apply (x0 : Vec Ideal S10000x64 .f32) (x1 : Vec Ideal S64x64 .f32) (i : S10000x64.Idx) :
    k2_pay1 (F := Ideal) x0 x1 i = ∑ k : Fin 64, x0 (rowAt i k) * x1 (colAt i k) := by
  unfold k2_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx i ((contrEquiv1 dot_S10000x64_S64x64_S10000x64_1_0_0_1_n_n 64 rfl rfl).symm k) = rowAt i k := funext fun a => Fin.ext (by
    match a with
    | ⟨0, _⟩ => exact lhs_row _ _
    | ⟨1, _⟩ => exact (lhs_col _ _).trans hk)
  have er : dot_S10000x64_S64x64_S10000x64_1_0_0_1_n_n.rhsIdx i ((contrEquiv1 dot_S10000x64_S64x64_S10000x64_1_0_0_1_n_n 64 rfl rfl).symm k) = colAt i k := funext fun a => Fin.ext (by
    match a with
    | ⟨0, _⟩ => exact (rhs_row _ _).trans hk
    | ⟨1, _⟩ => exact rhs_col _ _)
  rw [el, er]
  rfl

/-! ## From blocks to the array -/

/-- The index maps over the grid: the left window moves down the rows with the output window, the weights stay put. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 4 :=
  (by decide +kernel : ∀ t : Fin grid2.N, _)

/-- Each of the five row blocks is some point's. -/
theorem index_onto : ∀ q : Fin 5, ∃ t : Fin cfg2.N, win2_2.index t = ![q.val, 0] :=
  (by decide +kernel : ∀ q : Fin 5, ∃ t : Fin grid2.N, win2_2.index t = ![q.val, 0])

/-- What point t writes back is block t of the product of the two arrays the launch finds. -/
theorem flushed_eq (c : Dev nD) (t : Fin cfg2.N) :
    (dat2 V c).flushed 2 t = ((cfg2.win 2).blk t).view.read (Elt Ideal) (project (leftArr V c) (rightArr V c)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S64x64) zeroOffsets]
  obtain ⟨e0, e1, e2, e3, e4, e5⟩ := index_facts t
  funext j
  refine (blockProduct_apply (iblk2 V c 0 t) (iblk2 V c 1 t) j).trans ?_
  show _ = project (leftArr V c) (rightArr V c) (((cfg2.win 2).blk t).view.emb j)
  unfold project
  refine Finset.sum_congr rfl fun k _ => ?_
  have h0 : ((cfg2.win 0).blk t).view.emb (rowAt j k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (colAt j k) = ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  show leftArr V c (((cfg2.win 0).blk t).view.emb (rowAt j k)) * rightArr V c (((cfg2.win 1).blk t).view.emb (colAt j k))
    = leftArr V c (ix2 ((((cfg2.win 2).blk t).view.emb j) 0) k) * rightArr V c (ix2 k ((((cfg2.win 2).blk t).view.emb j) 1))
  rw [h0, h1]
  rfl

/-- An entry of the array lies in point t's block iff its row does. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every entry is in the block of the point that holds its row: row n is in block n / 10000. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the launch is the product of the two arrays it read. -/
theorem array_eq (c : Dev nD) : (dat2 V c).arrAt 2 cfg2.N = project (leftArr V c) (rightArr V c) :=
  (dat2 V c).arrAt_eq_of_cover 2 (project (leftArr V c) (rightArr V c)) (fun t _ => flushed_eq V c t) covered

end Cert.KernelIdeal.Project2

end
-- ==== Proof.BiasRelu3.lean ====
/-
  Bias and clamp, the epilogue of a layer: the output array after the launch is the aggregated array it reads
  with the bias row added to every node and the result clamped at zero, entry by entry.

  The grid has five points; point t reads rows 10000·t … 10000·t + 9999 of the aggregated array and the whole
  1 × 64 bias row, adds the bias of feature j to every entry (r, j), takes the maximum with zero and writes
  the block back as block t of the output. Every entry depends only on the same entry of the aggregated array
  and on the bias of its column, so each block is the whole result read through the block's rectangle, and
  the five blocks tile the 50000 rows.
-/
import proofs.«172337_j86268713107997_1_alg».proof.Proof.Gen.KernelIdeal.Frame
import proofs.«172337_j86268713107997_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu3

open Cert.KernelIdeal Cert.KernelIdeal.Gen Cert.GcnSpec

variable (V : (c : Dev nD) → (b : Ref sig .tc) → Buf (Elt Ideal) ((c : Thread nD τ).loc b))

/-- The aggregated array as the launch finds it, 50000 by 64. -/
abbrev aggArr (c : Dev nD) : FVec Ideal S50000x64 .f32 := V c main_v59
/-- The bias row as the launch finds it, 1 by 64. -/
abbrev biasArr (c : Dev nD) : FVec Ideal S1x64 .f32 := V c main_v60

theorem zeroOffsets : (![0, 0] : Fin 2 → Nat) = fun _ => 0 := funext fun a => by fin_cases a <;> rfl

/-! ## The block's entry -/

/-- The bias row's entry under column i₁. -/
abbrev biasAt (i : S10000x64.Idx) : S1x64.Idx := fun a => match a with
  | ⟨0, _⟩ => ⟨0, Nat.one_pos⟩
  | ⟨1, _⟩ => ⟨(i 1).val, (i 1).isLt⟩

/-- What the body stores at entry i of its output block: the aggregated entry plus its column's bias, clamped at zero
    (the same-shape casts are the identity, the row broadcast reads the bias row under the entry's column). -/
theorem blockEntry (x0 : Vec Ideal S10000x64 .f32) (x1 : Vec Ideal S1x64 .f32) (i : S10000x64.Idx) :
    k3_pay1 (F := Ideal) x0 x1 i = max (x0 i + x1 (biasAt i)) (Ideal.ofBits .f32 0x00000000#32) := by
  unfold k3_pay1
  simp only [shapeCast_self]
  show max (x0 i + broadcastTo S10000x64 x1 broadcasts_S1x64_S10000x64 i) (Ideal.ofBits .f32 0x00000000#32) = _
  rw [broadcastTo_apply x1 broadcasts_S1x64_S10000x64 i (biasAt i) (fun a => match a with
    | ⟨0, _⟩ => by show 0 = if (1 : Nat) = 1 then 0 else _; rw [if_pos rfl]
    | ⟨1, _⟩ => by show (i 1).val = if (64 : Nat) = 1 then 0 else (i 1).val; rw [if_neg (by decide)])]

/-! ## From blocks to the array -/

/-- The index maps over the grid: the aggregated window moves down the rows with the output window, the bias row stays put. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 4 :=
  (by decide +kernel : ∀ t : Fin grid3.N, _)

/-- Each of the five row blocks is some point's. -/
theorem index_onto : ∀ q : Fin 5, ∃ t : Fin cfg3.N, win3_2.index t = ![q.val, 0] :=
  (by decide +kernel : ∀ q : Fin 5, ∃ t : Fin grid3.N, win3_2.index t = ![q.val, 0])

/-- What point t writes back is block t of the biased, clamped array of the two arrays the launch finds. -/
theorem flushed_eq (c : Dev nD) (t : Fin cfg3.N) :
    (dat3 V c).flushed 2 t = ((cfg3.win 2).blk t).view.read (Elt Ideal) (biasRelu (aggArr V c) (biasArr V c)) := by
  show (cfg3.win 2).cut (grid3.coords t) ((dat3 V c).after 2 t) = _
  rw [after3_2]
  unfold out3_2
  rw [View.canon_unit_zero zeroOffsets]
  simp only [View.ld_unit_zero (S := S10000x64) zeroOffsets, View.ld_unit_zero (S := S1x64) zeroOffsets]
  obtain ⟨e0, e1, e2, e3, e4, e5⟩ := index_facts t
  funext j
  refine (blockEntry (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (biasAt j) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  show max (aggArr V c (((cfg3.win 0).blk t).view.emb j) + biasArr V c (((cfg3.win 1).blk t).view.emb (biasAt j))) (Ideal.ofBits .f32 0x00000000#32)
    = max (aggArr V c (((cfg3.win 2).blk t).view.emb j) + biasArr V c (ix2 (0 : Fin 1) ((((cfg3.win 2).blk t).view.emb j) 1))) (Ideal.ofBits .f32 0x00000000#32)
  rw [h0, h1]
  rfl

/-- An entry of the array lies in point t's block iff its row does. -/
theorem mem_blk (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Every entry is in the block of the point that holds its row: row n is in block n / 10000. -/
theorem covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the launch is the aggregated array it read, biased and clamped. -/
theorem array_eq (c : Dev nD) : (dat3 V c).arrAt 2 cfg3.N = biasRelu (aggArr V c) (biasArr V c) :=
  (dat3 V c).arrAt_eq_of_cover 2 (biasRelu (aggArr V c) (biasArr V c)) (fun t _ => flushed_eq V c t) covered

end Cert.KernelIdeal.BiasRelu3

end
-- ==== Proof.RefStages.lean ====
/-
  The reference's dense stages are the specification's.

  The reference multiplies the whole 50000 × 64 feature array by the weights in one product and adds the bias
  broadcast over all nodes before clamping at zero. Read at an entry (n, j), over the extended reals, its
  product is ∑ k, X[n, k] · W[k, j] — `GcnSpec.project` — and its epilogue max (A[n, j] + b[j]) 0 —
  `GcnSpec.biasRelu` of the bias laid out as a 1 × 64 row. Both layers: the second applies the same two stages
  to the first layer's output.
-/
import proofs.«172337_j86268713107997_1_alg».proof.Proof.RefRead
import proofs.«172337_j86268713107997_1_alg».proof.Proof.Spec
import Idealize.ShloMosaic.Lib.ValueLayout

noncomputable section

open scoped BigOperators
open Idealize.ShloMosaic Idealize.ShloMosaic.TcCoe Idealize.ShloMosaic.ValueIdx

namespace Cert.ReferenceIdeal.Stages

open Cert.ReferenceIdeal Cert.ReferenceIdeal.ReadP Cert.GcnSpec

/-- The host product at an entry is the specification's sum: its operand indices at (n, j) and feature k are (n, k) and (k, j). -/
theorem product_eq (A : FVec Ideal S50000x64 .f32) (W : FVec Ideal S64x64 .f32) :
    val_main_v30 (F := Ideal) A W = project A W := by
  funext i
  rw [val_main_v30_apply]
  unfold project
  refine Finset.sum_congr rfl fun k _ => ?_
  have el : lidx_main_v30 i k = ix2 (i 0) k := funext fun a => by
    match a with
    | ⟨0, _⟩ => rfl
    | ⟨1, _⟩ => rfl
  have er : ridx_main_v30 i k = ix2 k (i 1) := funext fun a => by
    match a with
    | ⟨0, _⟩ => rfl
    | ⟨1, _⟩ => rfl
  rw [el, er]
  rfl

/-- First layer, projection: the reference's product of the features and the first weights. -/
theorem projection1 (x0 : FVec Ideal S50000x64 .f32) (x2 : FVec Ideal S64x64 .f32) :
    val_main_v30 (F := Ideal) x0 x2 = project x0 x2 := product_eq x0 x2

/-- Second layer, projection: the reference's product of the first layer's output and the second weights. -/
theorem projection2 (x0 : FVec Ideal S50000x64 .f32) (x1 : (⟨S2x800000, .i32⟩ : BufTy).Contents (Elt Ideal)) (x2 : FVec Ideal S64x64 .f32)
    (x3 : FVec Ideal S64 .f32) (x4 : FVec Ideal S64x64 .f32) :
    val_main_v48 (F := Ideal) x0 x1 x2 x3 x4 = project (val_main_v47 (F := Ideal) x0 x1 x2 x3) x4 :=
  product_eq (val_main_v47 (F := Ideal) x0 x1 x2 x3) x4

/-- First layer, epilogue: the bias broadcast over the nodes, added and clamped, is the specification's epilogue of
    the bias laid out as a row. -/
theorem epilogue1 (x0 : FVec Ideal S50000x64 .f32) (x1 : (⟨S2x800000, .i32⟩ : BufTy).Contents (Elt Ideal)) (x2 : FVec Ideal S64x64 .f32)
    (x3 : FVec Ideal S64 .f32) (h : S64.ShapeCasts S1x64) :
    val_main_v47 (F := Ideal) x0 x1 x2 x3 = biasRelu (val_main_v43 (F := Ideal) x0 x1 x2) (shapeCast S1x64 x3 h) := by
  funext i
  rw [val_main_v47_apply, val_main_v46_apply, val_main_v45_apply, val_main_v44_apply, val_main_call1_v0_apply, val_main_call1_cst_apply]
  have e : idx_main_v44 (idx_main_v45 i) = ix1 (i 1) := funext fun a => by
    match a with
    | ⟨0, _⟩ => rfl
  rw [e]
  unfold biasRelu
  rw [shapeCast_a_1a_apply x3 h (0 : Fin 1) (i 1)]
  rfl

/-- Second layer, epilogue. -/
theorem epilogue2 (x0 : FVec Ideal S50000x64 .f32) (x1 : (⟨S2x800000, .i32⟩ : BufTy).Contents (Elt Ideal)) (x2 : FVec Ideal S64x64 .f32)
    (x3 : FVec Ideal S64 .f32) (x4 : FVec Ideal S64x64 .f32) (x5 : FVec Ideal S64 .f32) (h : S64.ShapeCasts S1x64) :
    val_main_v65 (F := Ideal) x0 x1 x2 x3 x4 x5 = biasRelu (val_main_v61 (F := Ideal) x0 x1 x2 x3 x4) (shapeCast S1x64 x5 h) := by
  funext i
  rw [val_main_v65_apply, val_main_v64_apply, val_main_v63_apply, val_main_v62_apply, val_main_call2_v0_apply, val_main_call2_cst_apply]
  have e : idx_main_v62 (idx_main_v63 i) = ix1 (i 1) := funext fun a => by
    match a with
    | ⟨0, _⟩ => rfl
  rw [e]
  unfold biasRelu
  rw [shapeCast_a_1a_apply x5 h (0 : Fin 1) (i 1)]
  rfl

end Cert.ReferenceIdeal.Stages

end
-- ==== Proof.Layers.lean ====
/-
  The program's result, boundary by boundary: what the result array holds when the run ends is the reference's
  two-layer network of the launch contents.

  The run crosses nine stretches: host operations that build the edge lists with self loops (sources, destinations)
  and the symmetric degree normalisation; the first projection; the host's gather, scaling and scatter-add; the first
  bias-and-clamp; the second projection; the same aggregation again; the second bias-and-clamp. At each boundary the
  buffers that later stretches read are named here as the reference's own stage of the arguments: the sources,
  destinations and normalisation never change after they are made, each projection is the specification's product
  (which the reference's host product also is), each aggregation is the same host operations on both sides, and each
  epilogue is the specification's bias-and-clamp (which the reference's broadcast, add and clamp also is).
  The host stretches are compared for any float values; only the four launches are read over the extended reals.
-/
import proofs.«172337_j86268713107997_1_alg».proof.Proof.Gen.KernelIdeal.Frame
import proofs.«172337_j86268713107997_1_alg».proof.Proof.Project0
import proofs.«172337_j86268713107997_1_alg».proof.Proof.BiasRelu1
import proofs.«172337_j86268713107997_1_alg».proof.Proof.Project2
import proofs.«172337_j86268713107997_1_alg».proof.Proof.BiasRelu3
import proofs.«172337_j86268713107997_1_alg».proof.Proof.RefStages
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Layers

open Cert.KernelIdeal Cert.KernelIdeal.Gen Cert.GcnSpec

/-! # The host stretches, for any float values -/

section Host

variable {F : FTy → Type} [FloatOps F]
variable (m : (ℓ : Loc nD τ sig) → Buf (Elt F) ℓ) (ρ : Dev nD → PrngReg) (c : Dev nD)

/-! ## Before the first projection: the edge lists and the normalisation, and the arguments untouched -/

set_option maxHeartbeats 4000000 in
theorem entry0_src : W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl
set_option maxHeartbeats 4000000 in
theorem entry0_dst : W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl
set_option maxHeartbeats 4000000 in
theorem entry0_norm : W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  after_results_simp
  try simp only [TRef.ofBuf, TRef.toBuf, cast_eq]
  rfl
set_option maxHeartbeats 4000000 in
theorem entry0_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
set_option maxHeartbeats 4000000 in
theorem entry0_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
set_option maxHeartbeats 4000000 in
theorem entry0_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
set_option maxHeartbeats 4000000 in
theorem entry0_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
set_option maxHeartbeats 4000000 in
theorem entry0_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## After the first projection: what it does not write is as it was -/

theorem exit0_src : W4 m ρ c (Proc.devRef .tc main_v3) = Cert.ReferenceIdeal.ReadP.val_main_v3 (F := F) (m ((c : Thread nD τ).loc main_arg1)) :=
  (W4_of_ne m ρ c main_v3 (by decide)).trans (entry0_src m ρ c)
theorem exit0_dst : W4 m ρ c (Proc.devRef .tc main_v6) = Cert.ReferenceIdeal.ReadP.val_main_v6 (F := F) (m ((c : Thread nD τ).loc main_arg1)) :=
  (W4_of_ne m ρ c main_v6 (by decide)).trans (entry0_dst m ρ c)
theorem exit0_norm : W4 m ρ c (Proc.devRef .tc main_v29) = Cert.ReferenceIdeal.ReadP.val_main_v29 (F := F) (m ((c : Thread nD τ).loc main_arg1)) :=
  (W4_of_ne m ρ c main_v29 (by decide)).trans (entry0_norm m ρ c)
theorem exit0_arg3 : W4 m ρ c (Proc.devRef .tc main_arg3) = (m ((c : Thread nD τ).loc main_arg3)) :=
  (W4_of_ne m ρ c main_arg3 (by decide)).trans (entry0_arg3 m ρ c)
theorem exit0_arg4 : W4 m ρ c (Proc.devRef .tc main_arg4) = (m ((c : Thread nD τ).loc main_arg4)) :=
  (W4_of_ne m ρ c main_arg4 (by decide)).trans (entry0_arg4 m ρ c)
theorem exit0_arg5 : W4 m ρ c (Proc.devRef .tc main_arg5) = (m ((c : Thread nD τ).loc main_arg5)) :=
  (W4_of_ne m ρ c main_arg5 (by decide)).trans (entry0_arg5 m ρ c)

/-! ## After the first aggregation -/

set_option maxHeartbeats 4000000 in
/-- The aggregation stretch, whatever projected array it finds: the reference's gather along the sources, scaling by the
    normalisation and scatter-add into the destinations, of that array. -/
theorem entry1_agg_of (h : (⟨S50000x64, .f32⟩ : BufTy).Contents (Elt F)) (hv : W4 m ρ c (Proc.devRef .tc main_v30) = h) :
    W5 m ρ c (Proc.devRef .tc main_v43)
      = Host.scatterAdd Cert.ReferenceIdeal.scatter_S50000x64_S850000x1_S850000x64_1_0_0_1 (Cert.ReferenceIdeal.ReadP.val_main_v41 (F := F)) (Cert.ReferenceIdeal.ReadP.val_main_v42 (F := F) (m ((c : Thread nD τ).loc main_arg1)))
          (mulf (Host.gather Cert.ReferenceIdeal.gather_S50000x64_S850000x1_S850000x64_1_0_n_n_0_1_164 h (Cert.ReferenceIdeal.ReadP.val_main_v36 (F := F) (m ((c : Thread nD τ).loc main_arg1)))) (Cert.ReferenceIdeal.ReadP.val_main_v39 (F := F) (m ((c : Thread nD τ).loc main_arg1)))) := by
  show StableHlo.after hostOps1 (W4 m ρ c) (Proc.devRef .tc main_v43) = _
  after_results_simp
  rw [hv, exit0_src, exit0_dst, exit0_norm]
  rfl
/-- The first bias, laid out as a row. -/
theorem entry1_bias : W5 m ρ c (Proc.devRef .tc main_v44) = shapeCast S1x64 (m ((c : Thread nD τ).loc main_arg3)) shapeCasts_S64_S1x64 := by
  show StableHlo.after hostOps1 (W4 m ρ c) (Proc.devRef .tc main_v44) = _
  after_results_simp
  rw [exit0_arg3]
  rfl
theorem entry1_src : W5 m ρ c (Proc.devRef .tc main_v3) = Cert.ReferenceIdeal.ReadP.val_main_v3 (F := F) (m ((c : Thread nD τ).loc main_arg1)) := by
  show StableHlo.after hostOps1 (W4 m ρ c) (Proc.devRef .tc main_v3) = _
  after_results
  exact exit0_src m ρ c
theorem entry1_dst : W5 m ρ c (Proc.devRef .tc main_v6) = Cert.ReferenceIdeal.ReadP.val_main_v6 (F := F) (m ((c : Thread nD τ).loc main_arg1)) := by
  show StableHlo.after hostOps1 (W4 m ρ c) (Proc.devRef .tc main_v6) = _
  after_results
  exact exit0_dst m ρ c
theorem entry1_norm : W5 m ρ c (Proc.devRef .tc main_v29) = Cert.ReferenceIdeal.ReadP.val_main_v29 (F := F) (m ((c : Thread nD τ).loc main_arg1)) := by
  show StableHlo.after hostOps1 (W4 m ρ c) (Proc.devRef .tc main_v29) = _
  after_results
  exact exit0_norm m ρ c
theorem entry1_arg4 : W5 m ρ c (Proc.devRef .tc main_arg4) = (m ((c : Thread nD τ).loc main_arg4)) := by
  show StableHlo.after hostOps1 (W4 m ρ c) (Proc.devRef .tc main_arg4) = _
  after_results
  exact exit0_arg4 m ρ c
theorem entry1_arg5 : W5 m ρ c (Proc.devRef .tc main_arg5) = (m ((c : Thread nD τ).loc main_arg5)) := by
  show StableHlo.after hostOps1 (W4 m ρ c) (Proc.devRef .tc main_arg5) = _
  after_results
  exact exit0_arg5 m ρ c

/-! ## After the first bias-and-clamp, and after the second projection -/

theorem exit1_src : W6 m ρ c (Proc.devRef .tc main_v3) = Cert.ReferenceIdeal.ReadP.val_main_v3 (F := F) (m ((c : Thread nD τ).loc main_arg1)) :=
  (W6_of_ne m ρ c main_v3 (by decide)).trans (entry1_src m ρ c)
theorem exit1_dst : W6 m ρ c (Proc.devRef .tc main_v6) = Cert.ReferenceIdeal.ReadP.val_main_v6 (F := F) (m ((c : Thread nD τ).loc main_arg1)) :=
  (W6_of_ne m ρ c main_v6 (by decide)).trans (entry1_dst m ρ c)
theorem exit1_norm : W6 m ρ c (Proc.devRef .tc main_v29) = Cert.ReferenceIdeal.ReadP.val_main_v29 (F := F) (m ((c : Thread nD τ).loc main_arg1)) :=
  (W6_of_ne m ρ c main_v29 (by decide)).trans (entry1_norm m ρ c)
theorem exit1_arg4 : W6 m ρ c (Proc.devRef .tc main_arg4) = (m ((c : Thread nD τ).loc main_arg4)) :=
  (W6_of_ne m ρ c main_arg4 (by decide)).trans (entry1_arg4 m ρ c)
theorem exit1_arg5 : W6 m ρ c (Proc.devRef .tc main_arg5) = (m ((c : Thread nD τ).loc main_arg5)) :=
  (W6_of_ne m ρ c main_arg5 (by decide)).trans (entry1_arg5 m ρ c)
theorem exit2_src : W7 m ρ c (Proc.devRef .tc main_v3) = Cert.ReferenceIdeal.ReadP.val_main_v3 (F := F) (m ((c : Thread nD τ).loc main_arg1)) :=
  (W7_of_ne m ρ c main_v3 (by decide)).trans (exit1_src m ρ c)
theorem exit2_dst : W7 m ρ c (Proc.devRef .tc main_v6) = Cert.ReferenceIdeal.ReadP.val_main_v6 (F := F) (m ((c : Thread nD τ).loc main_arg1)) :=
  (W7_of_ne m ρ c main_v6 (by decide)).trans (exit1_dst m ρ c)
theorem exit2_norm : W7 m ρ c (Proc.devRef .tc main_v29) = Cert.ReferenceIdeal.ReadP.val_main_v29 (F := F) (m ((c : Thread nD τ).loc main_arg1)) :=
  (W7_of_ne m ρ c main_v29 (by decide)).trans (exit1_norm m ρ c)
theorem exit2_arg5 : W7 m ρ c (Proc.devRef .tc main_arg5) = (m ((c : Thread nD τ).loc main_arg5)) :=
  (W7_of_ne m ρ c main_arg5 (by decide)).trans (exit1_arg5 m ρ c)

/-! ## After the second aggregation -/

set_option maxHeartbeats 4000000 in
/-- The aggregation stretch, whatever projected array it finds: the reference's gather along the sources, scaling by the
    normalisation and scatter-add into the destinations, of that array. -/
theorem entry3_agg_of (h : (⟨S50000x64, .f32⟩ : BufTy).Contents (Elt F)) (hv : W7 m ρ c (Proc.devRef .tc main_v46) = h) :
    W8 m ρ c (Proc.devRef .tc main_v59)
      = Host.scatterAdd Cert.ReferenceIdeal.scatter_S50000x64_S850000x1_S850000x64_1_0_0_1 (Cert.ReferenceIdeal.ReadP.val_main_v59 (F := F)) (Cert.ReferenceIdeal.ReadP.val_main_v60 (F := F) (m ((c : Thread nD τ).loc main_arg1)))
          (mulf (Host.gather Cert.ReferenceIdeal.gather_S50000x64_S850000x1_S850000x64_1_0_n_n_0_1_164 h (Cert.ReferenceIdeal.ReadP.val_main_v54 (F := F) (m ((c : Thread nD τ).loc main_arg1)))) (Cert.ReferenceIdeal.ReadP.val_main_v57 (F := F) (m ((c : Thread nD τ).loc main_arg1)))) := by
  show StableHlo.after hostOps3 (W7 m ρ c) (Proc.devRef .tc main_v59) = _
  after_results_simp
  rw [hv, exit2_src, exit2_dst, exit2_norm]
  rfl
/-- The second bias, laid out as a row. -/
theorem entry3_bias : W8 m ρ c (Proc.devRef .tc main_v60) = shapeCast S1x64 (m ((c : Thread nD τ).loc main_arg5)) shapeCasts_S64_S1x64 := by
  show StableHlo.after hostOps3 (W7 m ρ c) (Proc.devRef .tc main_v60) = _
  after_results_simp
  rw [exit2_arg5]
  rfl

end Host

/-! # The four launches, over the extended reals -/

section Launches

variable (m : (ℓ : Loc nD τ sig) → Buf (Elt Ideal) ℓ) (ρ : Dev nD → PrngReg) (c : Dev nD)

/-- The projected features are the reference's product of the features and the first weights. -/
theorem exit0_proj : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ((Project0.array_eq (V3 m ρ) c).trans ?_)
  show project (W3 m ρ c (Proc.devRef .tc main_arg0)) (W3 m ρ c (Proc.devRef .tc main_arg2)) = _
  rw [entry0_arg0, entry0_arg2]
  exact (Cert.ReferenceIdeal.Stages.projection1 _ _).symm

/-- The aggregated features: the same gather, scaling and scatter-add as the reference's, on the same operands. -/
theorem entry1_agg : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) :=
  entry1_agg_of m ρ c _ (exit0_proj m ρ c)

/-- The first layer's output is the reference's. -/
theorem exit1_layer : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((BiasRelu1.array_eq (V5 m ρ) c).trans ?_)
  show biasRelu (W5 m ρ c (Proc.devRef .tc main_v43)) (W5 m ρ c (Proc.devRef .tc main_v44)) = _
  rw [entry1_agg, entry1_bias]
  exact (Cert.ReferenceIdeal.Stages.epilogue1 _ _ _ _ _).symm

/-- The second projection is the reference's product of the first layer's output and the second weights. -/
theorem exit2_proj : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Project2.array_eq (V6 m ρ) c).trans ?_)
  show project (W6 m ρ c (Proc.devRef .tc main_v45)) (W6 m ρ c (Proc.devRef .tc main_arg4)) = _
  rw [exit1_layer, exit1_arg4]
  exact (Cert.ReferenceIdeal.Stages.projection2 _ _ _ _ _).symm

/-- The second aggregation, on the second projection. -/
theorem entry3_agg : W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  entry3_agg_of m ρ c _ (exit2_proj m ρ c)

/-- When the run ends the result array holds the reference's network of the launch contents. -/
theorem result_eq : W9 m ρ c (Proc.devRef .tc main_v61)
    = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((BiasRelu3.array_eq (V8 m ρ) c).trans ?_)
  show biasRelu (W8 m ρ c (Proc.devRef .tc main_v59)) (W8 m ρ c (Proc.devRef .tc main_v60)) = _
  rw [entry3_agg, entry3_bias]
  exact (Cert.ReferenceIdeal.Stages.epilogue2 _ _ _ _ _ _ _).symm

end Launches

end Cert.KernelIdeal.Layers

end
-- ==== Proof.lean ====
/-
  The certificate of a two-layer graph convolution: three TensorCore programs run and leave their arguments as
  launched, and the idealized kernel and the idealized reference end with the same result over the extended reals.

  Both programs compute relu (A · (relu (A · (X · W₁) + b₁) · W₂) + b₂), with A · the gather along the edges (self
  loops added), scaling by the symmetric degree normalisation and scatter-add into the destination nodes. The
  reference is host operations throughout. The kernel program runs the two products and the two bias-and-clamp
  epilogues as blocked launches over five row blocks of 10000 nodes, and everything else as the same host operations.
  Over the extended reals a blocked product into a zero accumulator is the whole product (its operands' narrower
  format changes nothing), and the blocked epilogue is the whole-array one, so the result array is the same function
  of the arguments on both sides; no law of arithmetic beyond that is used, and the precondition is never opened.

  Modules: Spec (the two dense stages as whole-array functions); Project0 and Project2 (each product launch leaves
  the specification's product), BiasRelu1 and BiasRelu3 (each epilogue launch leaves the specification's epilogue);
  KernelRun (the kernel program's run with the result buffer kept in its post); RefRun and RefRead (the reference's
  run and its stages); RefStages (the reference's dense stages are the specification's); Layers (the kernel program's
  result, boundary by boundary, is the reference's last stage of the launch contents). Here: the five claims.
-/
import proofs.«172337_j86268713107997_1_alg».proof.Defs
import proofs.«172337_j86268713107997_1_alg».proof.Proof.Gen.Kernel
import proofs.«172337_j86268713107997_1_alg».proof.Proof.Gen.Kernel.Frame
import proofs.«172337_j86268713107997_1_alg».proof.Proof.Gen.KernelIdeal
import proofs.«172337_j86268713107997_1_alg».proof.Proof.Gen.KernelIdeal.Frame
import proofs.«172337_j86268713107997_1_alg».proof.Proof.Gen.ReferenceIdeal
import proofs.«172337_j86268713107997_1_alg».proof.Proof.Gen.Pre_finite_inputs
import proofs.«172337_j86268713107997_1_alg».proof.Proof.KernelRun
import proofs.«172337_j86268713107997_1_alg».proof.Proof.Layers
import proofs.«172337_j86268713107997_1_alg».proof.Proof.RefRun
import proofs.«172337_j86268713107997_1_alg».proof.Proof.RefRead
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end with the result array at the reference's last stage of the kernel program's launch contents: the
    kernel program's by its boundaries (`Layers.result_eq`), the reference's by its run, its arguments being the same. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.result_eq m ρ c), (h c).2⟩)
      (Cert.KernelIdeal.Gen.run_out m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
